-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x768 : Shape := ⟨3, ![16, 1024, 768]⟩
abbrev S500x10x768 : Shape := ⟨3, ![500, 10, 768]⟩
abbrev S500x10 : Shape := ⟨2, ![500, 10]⟩
abbrev S500 : Shape := ⟨1, ![500]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel
  bcast_S_S500x10x768 : S_.BroadcastsInDim S500x10x768 (![] : Fin 0 → Fin S500x10x768.rank)
  reducesTo_S500x10x768_S_d0_1_2 : S500x10x768.ReducesTo [0, 1, 2] S_
  bcast_S_S500x10 : S_.BroadcastsInDim S500x10 (![] : Fin 0 → Fin S500x10.rank)
  reducesTo_S500x10_S_d0_1 : S500x10.ReducesTo [0, 1] S_
  bcast_S_S500 : S_.BroadcastsInDim S500 (![] : Fin 0 → Fin S500.rank)
  reducesTo_S500_S_d0 : S500.ReducesTo [0] S_

variable [Facts]

def fn_part1 {F : FTy → Type} [FloatOps F] (main_v13 : IVec S_ 1) (main_v16 : IVec S500 1) : IVec S_ 1 :=
  let main_c_5 : IVec S_ 1 := constantI S_ 1 1#1
  let main_v17 : IVec S_ 1 := (fun x v => Host.reduce IntOp.andi x v reducesTo_S500_S_d0 h_S_) main_v16 main_c_5
  let main_v18 : IVec S_ 1 := andi main_v13 main_v17
  main_v18

def fn {F : FTy → Type} [FloatOps F] (main_arg0 : FVec F S16x1024x768 .f32) (main_arg1 : FVec F S500x10x768 .f32) (main_arg2 : FVec F S500x10 .f32) (main_arg3 : FVec F S500 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S500x10x768 .f32 := Host.absf main_arg1
  let main_cst_0 : FVec F S_ .f32 := constant S_ .f32 0x7F800000#32
  let main_v5 : FVec F S500x10x768 .f32 := broadcastInDim S500x10x768 ![] bcast_S_S500x10x768 main_cst_0
  let main_v6 : IVec S500x10x768 1 := cmpf .olt main_v4 main_v5
  let main_c_1 : IVec S_ 1 := constantI S_ 1 1#1
  let main_v7 : IVec S_ 1 := (fun x v => Host.reduce IntOp.andi x v reducesTo_S500x10x768_S_d0_1_2 h_S_) main_v6 main_c_1
  let main_v8 : IVec S_ 1 := andi main_v3 main_v7
  let main_v9 : FVec F S500x10 .f32 := Host.absf main_arg2
  let main_cst_2 : FVec F S_ .f32 := constant S_ .f32 0x7F800000#32
  let main_v10 : FVec F S500x10 .f32 := broadcastInDim S500x10 ![] bcast_S_S500x10 main_cst_2
  let main_v11 : IVec S500x10 1 := cmpf .olt main_v9 main_v10
  let main_c_3 : IVec S_ 1 := constantI S_ 1 1#1
  let main_v12 : IVec S_ 1 := (fun x v => Host.reduce IntOp.andi x v reducesTo_S500x10_S_d0_1 h_S_) main_v11 main_c_3
  let main_v13 : IVec S_ 1 := andi main_v8 main_v12
  let main_v14 : FVec F S500 .f32 := Host.absf main_arg3
  let main_cst_4 : FVec F S_ .f32 := constant S_ .f32 0x7F800000#32
  let main_v15 : FVec F S500 .f32 := broadcastInDim S500 ![] bcast_S_S500 main_cst_4
  let main_v16 : IVec S500 1 := cmpf .olt main_v14 main_v15
  fn_part1 (F := F) main_v13 main_v16
-- ==== Kernel.lean ====
abbrev S16x1024x768 : Shape := ⟨3, ![16, 1024, 768]⟩
abbrev S500x10x768 : Shape := ⟨3, ![500, 10, 768]⟩
abbrev S500x10 : Shape := ⟨2, ![500, 10]⟩
abbrev S500 : Shape := ⟨1, ![500]⟩
abbrev S5000x768 : Shape := ⟨2, ![5000, 768]⟩
abbrev S_ : Shape := ⟨0, ![]⟩
abbrev S5000 : Shape := ⟨1, ![5000]⟩
abbrev S5000x1 : Shape := ⟨2, ![5000, 1]⟩
abbrev S768x5000 : Shape := ⟨2, ![768, 5000]⟩
abbrev S16x5000 : Shape := ⟨2, ![16, 5000]⟩
abbrev S8x64x768 : Shape := ⟨3, ![8, 64, 768]⟩
abbrev S8x5000 : Shape := ⟨2, ![8, 5000]⟩
abbrev S8x64 : Shape := ⟨2, ![8, 64]⟩
abbrev S8x64x1 : Shape := ⟨3, ![8, 64, 1]⟩
abbrev S512x768 : Shape := ⟨2, ![512, 768]⟩
abbrev S512x5000 : Shape := ⟨2, ![512, 5000]⟩
abbrev S8x64x5000 : Shape := ⟨3, ![8, 64, 5000]⟩
abbrev S16x500x10 : Shape := ⟨3, ![16, 500, 10]⟩
abbrev S1x500x10 : Shape := ⟨3, ![1, 500, 10]⟩
abbrev S16x500 : Shape := ⟨2, ![16, 500]⟩
abbrev S1x500 : Shape := ⟨2, ![1, 500]⟩

abbrev nBuf : Space → Nat
  | .hbm => 41
  | .vmem => 5
  | .smem => 0
  | _ => 0

abbrev bufTy : (tb : Table) → Fin (tcTables nBuf tb) → BufTy
  | .hbm, ⟨0, _⟩ => ⟨S16x1024x768, .f32⟩
  | .hbm, ⟨1, _⟩ => ⟨S500x10x768, .f32⟩
  | .hbm, ⟨2, _⟩ => ⟨S500x10, .f32⟩
  | .hbm, ⟨3, _⟩ => ⟨S500, .f32⟩
  | .hbm, ⟨4, _⟩ => ⟨S5000x768, .f32⟩
  | .hbm, ⟨5, _⟩ => ⟨S5000x768, .f32⟩
  | .hbm, ⟨6, _⟩ => ⟨S_, .f32⟩
  | .hbm, ⟨7, _⟩ => ⟨S5000, .f32⟩
  | .hbm, ⟨8, _⟩ => ⟨S5000x1, .f32⟩
  | .hbm, ⟨9, _⟩ => ⟨S5000x1, .f32⟩
  | .hbm, ⟨10, _⟩ => ⟨S_, .f32⟩
  | .hbm, ⟨11, _⟩ => ⟨S5000x1, .f32⟩
  | .hbm, ⟨12, _⟩ => ⟨S5000x1, .f32⟩
  | .hbm, ⟨13, _⟩ => ⟨S5000x768, .f32⟩
  | .hbm, ⟨14, _⟩ => ⟨S5000x768, .f32⟩
  | .hbm, ⟨15, _⟩ => ⟨S5000x768, .bf16⟩
  | .hbm, ⟨16, _⟩ => ⟨S768x5000, .bf16⟩
  | .hbm, ⟨17, _⟩ => ⟨S16x5000, .f32⟩
  | .hbm, ⟨18, _⟩ => ⟨S_, .f32⟩
  | .hbm, ⟨19, _⟩ => ⟨S500x10, .f32⟩
  | .hbm, ⟨20, _⟩ => ⟨S500x10, .f32⟩
  | .hbm, ⟨21, _⟩ => ⟨S500x10, .f32⟩
  | .hbm, ⟨22, _⟩ => ⟨S500x10, .f32⟩
  | .hbm, ⟨23, _⟩ => ⟨S500x10, .i1⟩
  | .hbm, ⟨24, _⟩ => ⟨S500x10, .f32⟩
  | .hbm, ⟨25, _⟩ => ⟨S500x10, .f32⟩
  | .hbm, ⟨26, _⟩ => ⟨S500x10, .f32⟩
  | .hbm, ⟨27, _⟩ => ⟨S500x10, .f32⟩
  | .hbm, ⟨28, _⟩ => ⟨S500x10, .f32⟩
  | .hbm, ⟨29, _⟩ => ⟨S500x10, .f32⟩
  | .hbm, ⟨30, _⟩ => ⟨S500x10, .f32⟩
  | .hbm, ⟨31, _⟩ => ⟨S500x10, .f32⟩
  | .hbm, ⟨32, _⟩ => ⟨S16x500x10, .f32⟩
  | .hbm, ⟨33, _⟩ => ⟨S1x500x10, .f32⟩
  | .hbm, ⟨34, _⟩ => ⟨S16x500x10, .f32⟩
  | .hbm, ⟨35, _⟩ => ⟨S16x500x10, .f32⟩
  | .hbm, ⟨36, _⟩ => ⟨S_, .f32⟩
  | .hbm, ⟨37, _⟩ => ⟨S16x500, .f32⟩
  | .hbm, ⟨38, _⟩ => ⟨S1x500, .f32⟩
  | .hbm, ⟨39, _⟩ => ⟨S16x500, .f32⟩
  | .hbm, ⟨40, _⟩ => ⟨S16x500, .f32⟩
  | .local _ .vmem, ⟨0, _⟩ => ⟨S8x64x768, .f32⟩
  | .local _ .vmem, ⟨1, _⟩ => ⟨S8x64x768, .f32⟩
  | .local _ .vmem, ⟨2, _⟩ => ⟨S768x5000, .bf16⟩
  | .local _ .vmem, ⟨3, _⟩ => ⟨S8x5000, .f32⟩
  | .local _ .vmem, ⟨4, _⟩ => ⟨S8x5000, .f32⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x5000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x5000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S500x10x768_S5000x768 : S500x10x768.ShapeCasts S5000x768
  reducesTo_S5000x768_S5000_d1 : S5000x768.ReducesTo [1] S5000
  h_S_ : 0 < S_.numel
  bcast_S5000_S5000x1_0 : S5000.BroadcastsInDim S5000x1 (![0] : Fin 1 → Fin S5000x1.rank)
  bcast_S_S5000x1 : S_.BroadcastsInDim S5000x1 (![] : Fin 0 → Fin S5000x1.rank)
  bcast_S5000x1_S5000x768_0_1 : S5000x1.BroadcastsInDim S5000x768 (![0, 1] : Fin 2 → Fin S5000x768.rank)
  bitsLt_bf16_f32 : FTy.bits .bf16 < FTy.bits .f32
  transposes_S5000x768_S768x5000_1_0 : S5000x768.Transposes [1, 0] S768x5000
  inb_S8x5000_S8x5000_0_0 : ∀ a, (![0, 0] : Fin 2 → Nat) a + S8x5000.size a ≤ S8x5000.size a
  h_S8x5000 : 0 < S8x5000.numel
  inb_S8x64x768_S8x64x768_0_0_0 : ∀ a, (![0, 0, 0] : Fin 3 → Nat) a + S8x64x768.size a ≤ S8x64x768.size a
  h_S8x64x768 : 0 < S8x64x768.numel
  reduces_S8x64x768_S8x64 : S8x64x768.Reduces [2] S8x64
  shapeCasts_S8x64_S8x64x1 : S8x64.ShapeCasts S8x64x1
  broadcasts_S8x64x1_S8x64x768 : S8x64x1.Broadcasts S8x64x768
  shapeCasts_S8x64x768_S512x768 : S8x64x768.ShapeCasts S512x768
  inb_S768x5000_S768x5000_0_0 : ∀ a, (![0, 0] : Fin 2 → Nat) a + S768x5000.size a ≤ S768x5000.size a
  h_S768x5000 : 0 < S768x5000.numel
  shapeCasts_S768x5000_S768x5000 : S768x5000.ShapeCasts S768x5000
  shapeCasts_S512x5000_S8x64x5000 : S512x5000.ShapeCasts S8x64x5000
  reduces_S8x64x5000_S8x5000 : S8x64x5000.Reduces [1] S8x5000
  shapeCasts_S8x5000_S8x5000 : S8x5000.ShapeCasts S8x5000
  bcast_S_S500x10 : S_.BroadcastsInDim S500x10 (![] : Fin 0 → Fin S500x10.rank)
  shapeCasts_S16x5000_S16x500x10 : S16x5000.ShapeCasts S16x500x10
  bcast_S500x10_S1x500x10_1_2 : S500x10.BroadcastsInDim S1x500x10 (![1, 2] : Fin 2 → Fin S1x500x10.rank)
  bcast_S1x500x10_S16x500x10_0_1_2 : S1x500x10.BroadcastsInDim S16x500x10 (![0, 1, 2] : Fin 3 → Fin S16x500x10.rank)
  reducesTo_S16x500x10_S16x500_d2 : S16x500x10.ReducesTo [2] S16x500
  bcast_S500_S1x500_1 : S500.BroadcastsInDim S1x500 (![1] : Fin 1 → Fin S1x500.rank)
  bcast_S1x500_S16x500_0_1 : S1x500.BroadcastsInDim S16x500 (![0, 1] : Fin 2 → Fin S16x500.rank)
  dot_S512x768_S768x5000_S512x5000_1_0_0_1_n_n_wf : DotDims.WF S512x768 S768x5000 S512x5000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x768.size a ≤ S16x1024x768.size a
  hwx0_0 : ∀ i : grid0.Coords, EltTy.bits .f32 = 32 ∨ (Rect.block (s := S16x1024x768) S8x64x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x5000.size a ≤ S768x5000.size a
  hwx0_1 : ∀ i : grid0.Coords, EltTy.bits .bf16 = 32 ∨ (Rect.block (s := S768x5000) S768x5000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x5000.size a ≤ S16x5000.size a
  hwx0_2 : ∀ i : grid0.Coords, EltTy.bits .f32 = 32 ∨ (Rect.block (s := S16x5000) S8x5000.size (cc0_transform_2 i) (hinb0_2 i)).WholeWords (EltTy.packing .f32)

variable [Facts₀]

def dot_S512x768_S768x5000_S512x5000_1_0_0_1_n_n : DotDims S512x768 S768x5000 S512x5000 where
  lhsContracting := [1]
  rhsContracting := [0]
  lhsNonContracting := [0]
  rhsNonContracting := [1]
  lhsBatch := []
  rhsBatch := []
  wf := dot_S512x768_S768x5000_S512x5000_1_0_0_1_n_n_wf

abbrev win0_0 : Pipeline.Window sig grid0 :=
  Pipeline.Window.ofSpec (Memref.whole main_arg0) S8x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S768x5000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S8x5000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x768 : Shape := ⟨3, ![16, 1024, 768]⟩
abbrev S500x10x768 : Shape := ⟨3, ![500, 10, 768]⟩
abbrev S500x10 : Shape := ⟨2, ![500, 10]⟩
abbrev S500 : Shape := ⟨1, ![500]⟩
abbrev S_ : Shape := ⟨0, ![]⟩
abbrev S16x1024 : Shape := ⟨2, ![16, 1024]⟩
abbrev S16x1024x1 : Shape := ⟨3, ![16, 1024, 1]⟩
abbrev S500x10x1 : Shape := ⟨3, ![500, 10, 1]⟩
abbrev S16x1024x500x10 : Shape := ⟨4, ![16, 1024, 500, 10]⟩
abbrev S16x500x10 : Shape := ⟨3, ![16, 500, 10]⟩
abbrev S1x500x10 : Shape := ⟨3, ![1, 500, 10]⟩
abbrev S16x500 : Shape := ⟨2, ![16, 500]⟩
abbrev S1x500 : Shape := ⟨2, ![1, 500]⟩

abbrev nBuf : Space → Nat
  | .hbm => 49
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S500x10x768, .f32⟩
  | .hbm, ⟨2, _⟩ => ⟨S500x10, .f32⟩
  | .hbm, ⟨3, _⟩ => ⟨S500, .f32⟩
  | .hbm, ⟨4, _⟩ => ⟨S16x1024x768, .f32⟩
  | .hbm, ⟨5, _⟩ => ⟨S_, .f32⟩
  | .hbm, ⟨6, _⟩ => ⟨S16x1024, .f32⟩
  | .hbm, ⟨7, _⟩ => ⟨S16x1024x1, .f32⟩
  | .hbm, ⟨8, _⟩ => ⟨S16x1024x1, .f32⟩
  | .hbm, ⟨9, _⟩ => ⟨S_, .f32⟩
  | .hbm, ⟨10, _⟩ => ⟨S16x1024x1, .f32⟩
  | .hbm, ⟨11, _⟩ => ⟨S16x1024x1, .f32⟩
  | .hbm, ⟨12, _⟩ => ⟨S16x1024x768, .f32⟩
  | .hbm, ⟨13, _⟩ => ⟨S16x1024x768, .f32⟩
  | .hbm, ⟨14, _⟩ => ⟨S500x10x768, .f32⟩
  | .hbm, ⟨15, _⟩ => ⟨S_, .f32⟩
  | .hbm, ⟨16, _⟩ => ⟨S500x10, .f32⟩
  | .hbm, ⟨17, _⟩ => ⟨S500x10x1, .f32⟩
  | .hbm, ⟨18, _⟩ => ⟨S500x10x1, .f32⟩
  | .hbm, ⟨19, _⟩ => ⟨S_, .f32⟩
  | .hbm, ⟨20, _⟩ => ⟨S500x10x1, .f32⟩
  | .hbm, ⟨21, _⟩ => ⟨S500x10x1, .f32⟩
  | .hbm, ⟨22, _⟩ => ⟨S500x10x768, .f32⟩
  | .hbm, ⟨23, _⟩ => ⟨S500x10x768, .f32⟩
  | .hbm, ⟨24, _⟩ => ⟨S16x1024x500x10, .f32⟩
  | .hbm, ⟨25, _⟩ => ⟨S_, .f32⟩
  | .hbm, ⟨26, _⟩ => ⟨S16x500x10, .f32⟩
  | .hbm, ⟨27, _⟩ => ⟨S_, .f32⟩
  | .hbm, ⟨28, _⟩ => ⟨S500x10, .f32⟩
  | .hbm, ⟨29, _⟩ => ⟨S500x10, .f32⟩
  | .hbm, ⟨30, _⟩ => ⟨S500x10, .f32⟩
  | .hbm, ⟨31, _⟩ => ⟨S500x10, .f32⟩
  | .hbm, ⟨32, _⟩ => ⟨S500x10, .i1⟩
  | .hbm, ⟨33, _⟩ => ⟨S500x10, .f32⟩
  | .hbm, ⟨34, _⟩ => ⟨S500x10, .f32⟩
  | .hbm, ⟨35, _⟩ => ⟨S500x10, .f32⟩
  | .hbm, ⟨36, _⟩ => ⟨S500x10, .f32⟩
  | .hbm, ⟨37, _⟩ => ⟨S500x10, .f32⟩
  | .hbm, ⟨38, _⟩ => ⟨S500x10, .f32⟩
  | .hbm, ⟨39, _⟩ => ⟨S500x10, .f32⟩
  | .hbm, ⟨40, _⟩ => ⟨S500x10, .f32⟩
  | .hbm, ⟨41, _⟩ => ⟨S1x500x10, .f32⟩
  | .hbm, ⟨42, _⟩ => ⟨S16x500x10, .f32⟩
  | .hbm, ⟨43, _⟩ => ⟨S16x500x10, .f32⟩
  | .hbm, ⟨44, _⟩ => ⟨S_, .f32⟩
  | .hbm, ⟨45, _⟩ => ⟨S16x500, .f32⟩
  | .hbm, ⟨46, _⟩ => ⟨S1x500, .f32⟩
  | .hbm, ⟨47, _⟩ => ⟨S16x500, .f32⟩
  | .hbm, ⟨48, _⟩ => ⟨S16x500, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]

class Facts₀ : Prop where
  reducesTo_S16x1024x768_S16x1024_d2 : S16x1024x768.ReducesTo [2] S16x1024
  h_S_ : 0 < S_.numel
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S16x1024x1_S16x1024x768_0_1_2 : S16x1024x1.BroadcastsInDim S16x1024x768 (![0, 1, 2] : Fin 3 → Fin S16x1024x768.rank)
  reducesTo_S500x10x768_S500x10_d2 : S500x10x768.ReducesTo [2] S500x10
  bcast_S500x10_S500x10x1_0_1 : S500x10.BroadcastsInDim S500x10x1 (![0, 1] : Fin 2 → Fin S500x10x1.rank)
  bcast_S_S500x10x1 : S_.BroadcastsInDim S500x10x1 (![] : Fin 0 → Fin S500x10x1.rank)
  bcast_S500x10x1_S500x10x768_0_1_2 : S500x10x1.BroadcastsInDim S500x10x768 (![0, 1, 2] : Fin 3 → Fin S500x10x768.rank)
  reducesTo_S16x1024x500x10_S16x500x10_d1 : S16x1024x500x10.ReducesTo [1] S16x500x10
  bcast_S_S500x10 : S_.BroadcastsInDim S500x10 (![] : Fin 0 → Fin S500x10.rank)
  bcast_S500x10_S1x500x10_1_2 : S500x10.BroadcastsInDim S1x500x10 (![1, 2] : Fin 2 → Fin S1x500x10.rank)
  bcast_S1x500x10_S16x500x10_0_1_2 : S1x500x10.BroadcastsInDim S16x500x10 (![0, 1, 2] : Fin 3 → Fin S16x500x10.rank)
  reducesTo_S16x500x10_S16x500_d2 : S16x500x10.ReducesTo [2] S16x500
  bcast_S500_S1x500_1 : S500.BroadcastsInDim S1x500 (![1] : Fin 1 → Fin S1x500.rank)
  bcast_S1x500_S16x500_0_1 : S1x500.BroadcastsInDim S16x500 (![0, 1] : Fin 2 → Fin S16x500.rank)
  dot_S16x1024x768_S500x10x768_S16x1024x500x10_2_2_01_01_n_n_wf : DotDims.WF S16x1024x768 S500x10x768 S16x1024x500x10 [2] [2] [0, 1] [0, 1] [] []

variable [Facts₀]

def dot_S16x1024x768_S500x10x768_S16x1024x500x10_2_2_01_01_n_n : DotDims S16x1024x768 S500x10x768 S16x1024x500x10 where
  lhsContracting := [2]
  rhsContracting := [2]
  lhsNonContracting := [0, 1]
  rhsNonContracting := [0, 1]
  lhsBatch := []
  rhsBatch := []
  wf := dot_S16x1024x768_S500x10x768_S16x1024x500x10_2_2_01_01_n_n_wf

class Facts : Prop extends Facts₀ where

variable [Facts]
-- ==== Proof.KernelCases.lean ====
/-
  What one run of the kernel body leaves in the output block, in each of its two cases.

  The body first resets the output block to the splat of the seed when the position block is the first of its row block,
  and then in every case replaces the block by the update `u` of what the block holds: `u x p old` is the entrywise
  maximum of `old` and of the maxima, over the positions of the block `x`, of the products of the normalized `x` with `p`.
  So at a first position block the body leaves `u x p seed`, whatever the block held before, and at any other one
  `u x p old`.
-/
import proofs.«114233_j45268955299904_1_alg».proof.Proof.Gen.KernelIdeal.Frame
import Idealize.ShloMosaic.Lib.Pipeline.Value
import Idealize.ShloMosaic.Lib.Tactic

noncomputable section

namespace Cert.KernelIdeal.Cases

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A position block that is not the first of its row block: the update of what the output block held. -/
theorem out_later (c : Dev nD) (i : grid0.Coords) (a2 : Memref sig .tc .vmem S8x64x768 .f32) (h2 : a2.IsWhole)
    (a3 : Memref sig .tc .vmem S768x5000 .bf16) (h3 : a3.IsWhole) (a4 : Memref sig .tc .vmem S8x5000 .f32) (h4 : a4.IsWhole)
    (hc : ¬cond0_0 i) (x0 : Vec F S8x64x768 .f32) (x1 : Vec F S768x5000 .bf16) (xo : Vec F S8x5000 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz2]
  simp only [View.readAt_eq_ld, h2.read_unread, h3.read_unread, h4.read_unread,
    View.ld_unit_zero (S := S8x64x768) hz3, View.ld_unit_zero (S := S768x5000) hz2, View.ld_unit_zero (S := S8x5000) hz2]

/-- The first position block of a row block: the update of the seed's splat. -/
theorem out_first (c : Dev nD) (i : grid0.Coords) (a2 : Memref sig .tc .vmem S8x64x768 .f32) (h2 : a2.IsWhole)
    (a3 : Memref sig .tc .vmem S768x5000 .bf16) (h3 : a3.IsWhole) (a4 : Memref sig .tc .vmem S8x5000 .f32) (h4 : a4.IsWhole)
    (hc : cond0_0 i) (x0 : Vec F S8x64x768 .f32) (x1 : Vec F S768x5000 .bf16) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x5000) hz2, View.readCov_unit_zero (S := S8x5000) _ hz2]
  simp only [View.readAt_eq_ld, h2.read_unread, h3.read_unread, h4.read_unread,
    View.ld_unit_zero (S := S8x64x768) hz3, View.ld_unit_zero (S := S768x5000) hz2, View.ld_unit_zero (S := S8x5000) hz2,
    View.readCov_unit_zero (S := S8x5000) _ hz2]

end Cert.KernelIdeal.Cases

end
-- ==== Proof.LibKeepdims3.lean ====
/-
  A kept unit axis in three dimensions, read at an index: an array `[a, b]` viewed as `[a, b, 1]` reads, at `(i, j, u)`,
  its entry `(i, j)`, and an array `[a, b, 1]` broadcast along its unit axis to `[a, b, c]` reads, at `(i, j, k)`, its
  entry `(i, j, 0)`. Together they read a sum over the last axis that keeps that axis and is then broadcast against the
  array it was taken from.
-/
import Idealize.ShloMosaic.Lib.Pipeline.Value
import Idealize.ShloMosaic.Lib.ValueIdx

noncomputable section

namespace Cert.LibKeepdims3

open Idealize.ShloMosaic Idealize.ShloMosaic.ValueIdx

variable {α : Type}

/-- `[a, b]` cast to `[a, b, 1]` reads, at `(i, j, u)`, the entry `(i, j)`: both have row-major position `i * b + j`, the
    unit coordinate `u` being `0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b, 1]` broadcast to `[a, b, c]` reads, at `(i, j, k)`, the entry `(i, j, 0)`: the two leading coordinates are
    kept (or are `0` already on an axis of extent one), the unit axis reads its only coordinate. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.LibKeepdims3

end
-- ==== Proof.KernelPoint.lean ====
/-
  The kernel's update of one output block, read at one entry, over the extended reals.

  For a block `x` of 8 rows by 64 positions by 768 features, the prototype array `p` of 768 features by 5000 columns and
  the block's previous contents `old`, entry `(r, q)` of the update is

      max (old (r, q)) (the maximum over the 64 positions l of  ∑ d, unit (x (r, l, ·)) d * p (d, q)),

  where `unit row` is the row divided by the larger of its Euclidean norm and ε (so a row of norm at least ε becomes a
  unit vector), the maximum over the positions being the fold of `max` from the seed the body uses. A change of float
  format is the identity on extended reals, the matrix product into a zero accumulator is the plain sum over the
  contracted axis, and regrouping `(r, l)` as the row `64 r + l` and back is the identity on row-major positions; so
  nothing is left of the body's layout steps.
-/
import proofs.«114233_j45268955299904_1_alg».proof.Proof.Gen.KernelIdeal.Skeleton
import proofs.«114233_j45268955299904_1_alg».proof.Proof.LibKeepdims3
import Idealize.ShloMosaic.PureOps.Ideal.Laws
import Idealize.ShloMosaic.Lib.Pipeline.Value
import Idealize.ShloMosaic.Lib.ValueIdx

noncomputable section

open scoped BigOperators

namespace Cert.KernelIdeal.Point

open Idealize.ShloMosaic Idealize.ShloMosaic.ValueIdx
open Cert.KernelIdeal Cert.KernelIdeal.Gen

/-- A row divided by the larger of its Euclidean norm and `eps`. -/
def unitRow {n : ℕ} (eps : EReal) (row : Fin n → EReal) (d : Fin n) : EReal :=
  Ideal.div (row d) (max (Ideal.sqrt (∑ e : Fin n, row e * row e)) eps)

/-! ## The sum of squares along the feature axis -/

theorem sumsq_apply (v : FVec Ideal S8x64x768 .f32) (hR : S8x64x768.Reduces [2] S8x64) (hφ : FKind.Formats .f32)
    (hacc : (0x00000000#32 : BitVec 32) = 0x00000000#32) (r : Fin 8) (l : Fin 64) :
    multiReduction .add [2] S8x64 (mulf v v) 0x00000000#32 hR hφ hacc (ix2 r l)
      = ∑ e : Fin 768, v (ix3 r l e) * v (ix3 r l e) := by
  refine (Ideal.multiReduction_add_single (mulf v v) 0x00000000#32 hR hφ hacc (ix2 r l)).trans ?_
  refine Finset.sum_congr rfl fun e _ => ?_
  have hi : hR.lift (ix2 r l) e = ix3 r l e :=
    funext fun a => Fin.ext (by match a with | ⟨0, _⟩ => rfl | ⟨1, _⟩ => rfl | ⟨2, _⟩ => rfl)
  rw [hi]
  rfl

/-! ## The normalized block at an entry -/

theorem normalize_apply (v : FVec Ideal S8x64x768 .f32) (hR : S8x64x768.Reduces [2] S8x64) (hφ : FKind.Formats .f32)
    (hacc : (0x00000000#32 : BitVec 32) = 0x00000000#32) (hC : S8x64.ShapeCasts S8x64x1)
    (hB : S8x64x1.Broadcasts S8x64x768) (r : Fin 8) (l : Fin 64) (d : Fin 768) :
    divf v (broadcastTo S8x64x768 (maximumf (sqrt (shapeCast S8x64x1
        (multiReduction .add [2] S8x64 (mulf v v) 0x00000000#32 hR hφ hacc) hC))
        (broadcast S8x64x1 (Scalar.ofBits .f32 0x2B8CBCCC#32))) hB) (ix3 r l d)
      = unitRow (Ideal.ofBits .f32 0x2B8CBCCC#32) (fun e => v (ix3 r l e)) d := by
  rw [divf_apply, Cert.LibKeepdims3.broadcastTo_ab1_abc_apply, maximumf_apply]
  show Ideal.div _ (max (Ideal.sqrt (shapeCast S8x64x1 _ hC (ix3 r l (0 : Fin 1)))) _) = _
  rw [Cert.LibKeepdims3.shapeCast_ab_ab1_apply, sumsq_apply]
  rfl

/-! ## The matrix product at an entry: the sum over the contracted axis -/

theorem lhs_mm_0 (i : S512x5000.Idx) (q : dot_S512x768_S768x5000_S512x5000_1_0_0_1_n_n.contr.Idx) :
    (dot_S512x768_S768x5000_S512x5000_1_0_0_1_n_n.lhsIdx i q 0).val = (i 0).val := by
  unfold DotDims.lhsIdx
  rw [dif_neg (show ¬(0 : Fin S512x768.rank) ∈ dot_S512x768_S768x5000_S512x5000_1_0_0_1_n_n.lhsBatch by decide), dif_pos (show (0 : Fin S512x768.rank) ∈ dot_S512x768_S768x5000_S512x5000_1_0_0_1_n_n.lhsNonContracting by decide)]
  rfl
theorem lhs_mm_1 (i : S512x5000.Idx) (q : dot_S512x768_S768x5000_S512x5000_1_0_0_1_n_n.contr.Idx) :
    (dot_S512x768_S768x5000_S512x5000_1_0_0_1_n_n.lhsIdx i q 1).val = (q ⟨0, by decide⟩).val :=
  dot_S512x768_S768x5000_S512x5000_1_0_0_1_n_n.lhsIdx_val_of_single rfl i q
theorem rhs_mm_0 (i : S512x5000.Idx) (q : dot_S512x768_S768x5000_S512x5000_1_0_0_1_n_n.contr.Idx) :
    (dot_S512x768_S768x5000_S512x5000_1_0_0_1_n_n.rhsIdx i q 0).val = (q ⟨0, by decide⟩).val :=
  dot_S512x768_S768x5000_S512x5000_1_0_0_1_n_n.rhsIdx_val_of_single rfl i q
theorem rhs_mm_1 (i : S512x5000.Idx) (q : dot_S512x768_S768x5000_S512x5000_1_0_0_1_n_n.contr.Idx) :
    (dot_S512x768_S768x5000_S512x5000_1_0_0_1_n_n.rhsIdx i q 1).val = (i 1).val := by
  unfold DotDims.rhsIdx
  rw [dif_neg (show ¬(1 : Fin S768x5000.rank) ∈ dot_S512x768_S768x5000_S512x5000_1_0_0_1_n_n.rhsBatch by decide), dif_pos (show (1 : Fin S768x5000.rank) ∈ dot_S512x768_S768x5000_S512x5000_1_0_0_1_n_n.rhsNonContracting by decide)]
  rfl

theorem mm_apply (lhs : FVec Ideal S512x768 .bf16) (rhs : FVec Ideal S768x5000 .bf16) (row : Fin 512) (q : Fin 5000) :
    matmul dot_S512x768_S768x5000_S512x5000_1_0_0_1_n_n none lhs rhs (constant S512x5000 .f32 0x00000000#32) (ix2 row q)
      = ∑ d : Fin 768, lhs (ix2 row d) * rhs (ix2 d q) := by
  simp only [matmul]
  rw [Ideal.matmul_constant_zero_apply, ← Equiv.sum_comp (ValueIdx.contrEquiv1 dot_S512x768_S768x5000_S512x5000_1_0_0_1_n_n 768 rfl rfl).symm]
  refine Finset.sum_congr rfl fun k _ => ?_
  have hk := ValueIdx.contrEquiv1_symm_val dot_S512x768_S768x5000_S512x5000_1_0_0_1_n_n 768 rfl rfl k
  have el : dot_S512x768_S768x5000_S512x5000_1_0_0_1_n_n.lhsIdx (ix2 row q) ((ValueIdx.contrEquiv1 dot_S512x768_S768x5000_S512x5000_1_0_0_1_n_n 768 rfl rfl).symm k) = ix2 row k := funext fun a => Fin.ext (by
    match a with
    | ⟨0, _⟩ => exact lhs_mm_0 _ _
    | ⟨1, _⟩ => exact (lhs_mm_1 _ _).trans hk)
  have er : dot_S512x768_S768x5000_S512x5000_1_0_0_1_n_n.rhsIdx (ix2 row q) ((ValueIdx.contrEquiv1 dot_S512x768_S768x5000_S512x5000_1_0_0_1_n_n 768 rfl rfl).symm k) = ix2 k q := funext fun a => Fin.ext (by
    match a with
    | ⟨0, _⟩ => exact (rhs_mm_0 _ _).trans hk
    | ⟨1, _⟩ => exact rhs_mm_1 _ _)
  rw [el, er]

/-! ## Regrouping rows: `(r, l)` as the row `64 r + l`, and back -/

/-- The row `64 r + l` of the 512 rows. -/
def rowOf (r : Fin 8) (l : Fin 64) : Fin 512 := ⟨64 * r.val + l.val, by have := r.isLt; have := l.isLt; omega⟩

theorem rows_merge_apply {α : Type} (x : S8x64x768.Idx → α) (h : S8x64x768.ShapeCasts S512x768) (r : Fin 8) (l : Fin 64)
    (d : Fin 768) : shapeCast S512x768 x h (ix2 (rowOf r l) d) = x (ix3 r l d) :=
  shapeCast_apply x h _ _ (by
    rw [Shape.rowMajor_val_three, Shape.rowMajor_val_two]
    show (r.val * 64 + l.val) * 768 + d.val = (64 * r.val + l.val) * 768 + d.val
    omega)

theorem rows_split_apply {α : Type} (x : S512x5000.Idx → α) (h : S512x5000.ShapeCasts S8x64x5000) (r : Fin 8) (l : Fin 64)
    (q : Fin 5000) : shapeCast S8x64x5000 x h (ix3 r l q) = x (ix2 (rowOf r l) q) :=
  shapeCast_apply x h _ _ (by
    rw [Shape.rowMajor_val_three, Shape.rowMajor_val_two]
    show (64 * r.val + l.val) * 5000 + q.val = (r.val * 64 + l.val) * 5000 + q.val
    omega)

/-! ## The maximum over a block's positions -/

theorem blockmax_apply (v : FVec Ideal S8x64x5000 .f32) (hR : S8x64x5000.Reduces [1] S8x5000) (hφ : FKind.Formats .f32)
    (hacc : (0xFF800000#32 : BitVec 32) = 0xFF800000#32) (r : Fin 8) (q : Fin 5000) :
    multiReduction .maximumf [1] S8x5000 v 0xFF800000#32 hR hφ hacc (ix2 r q)
      = (Finset.univ : Finset (Fin 64)).fold max (Ideal.ofBits .f32 0xFF800000#32) fun l => v (ix3 r l q) := by
  refine (Ideal.multiReduction_maximumf_single v 0xFF800000#32 hR hφ hacc (ix2 r q)).trans ?_
  refine congrArg (fun f => (Finset.univ : Finset (Fin 64)).fold max (Ideal.ofBits .f32 0xFF800000#32) f) (funext fun l => ?_)
  have hi : hR.lift (ix2 r q) l = ix3 r l q :=
    funext fun a => Fin.ext (by match a with | ⟨0, _⟩ => rfl | ⟨1, _⟩ => rfl | ⟨2, _⟩ => rfl)
  show v (hR.lift (ix2 r q) l) = _
  rw [hi]
  rfl

/-! ## The update at an entry -/

/-- The similarity of position `l` of row `r` of the block `x` with column `q` of `p`. -/
def blockSim (x : Vec Ideal S8x64x768 .f32) (p : Vec Ideal S768x5000 .bf16) (r : Fin 8) (q : Fin 5000) (l : Fin 64) : EReal :=
  ∑ d : Fin 768, unitRow (Ideal.ofBits .f32 0x2B8CBCCC#32) (fun e => x (ix3 r l e)) d * p (ix2 d q)

theorem update_apply (x : Vec Ideal S8x64x768 .f32) (p : Vec Ideal S768x5000 .bf16) (old : Vec Ideal S8x5000 .f32)
    (r : Fin 8) (q : Fin 5000) :
    k0_pay2 (F := Ideal) x p old (ix2 r q)
      = max (old (ix2 r q))
          ((Finset.univ : Finset (Fin 64)).fold max (Ideal.ofBits .f32 0xFF800000#32) (blockSim x p r q)) := by
  unfold k0_pay2
  dsimp only
  refine (maximumf_apply _ _ _).trans ?_
  refine congrArg₂ max (congrFun (shapeCast_self old _) _) ?_
  refine (blockmax_apply _ _ _ _ r q).trans ?_
  refine congrArg (fun f => (Finset.univ : Finset (Fin 64)).fold max (Ideal.ofBits .f32 0xFF800000#32) f) (funext fun l => ?_)
  refine (rows_split_apply _ _ r l q).trans ?_
  refine (mm_apply _ _ (rowOf r l) q).trans ?_
  unfold blockSim
  refine Finset.sum_congr rfl fun d _ => ?_
  refine congrArg₂ (· * ·) ?_ (congrFun (shapeCast_self p _) _)
  refine (rows_merge_apply _ _ r l d).trans ?_
  refine (truncf_apply (s := S8x64x768) (φ := FTy.f32) (ψ := FTy.bf16) _ _ (ix3 r l d)).trans ?_
  exact normalize_apply x _ _ _ _ _ r l d

/-- The seed's splat at an entry. -/
theorem seed_apply (r : Fin 8) (q : Fin 5000) : k0_pay1 (F := Ideal) (ix2 r q) = Ideal.ofBits .f32 0xFF800000#32 := rfl

end Cert.KernelIdeal.Point

end
-- ==== Proof.RunningMax.lean ====
/-
  A running maximum taken block by block is the maximum over everything.

  Over a linear order, let `g` be a family indexed by `Fin N`, cut into consecutive blocks of `B` entries, and let a
  value be updated once per block: the new value is the maximum of the old one and of the block's own maximum, the
  block's maximum being the fold of `max` from a seed `b` over the block's `B` entries. A value `v` "holds the first
  `k` entries" when its upper bounds are exactly the common upper bounds of `b` and of `g 0, …, g (k - 1)`. The seed
  alone holds no entry; an update by block `n` turns a value holding the first `B * n` entries into one holding the
  first `B * (n + 1)`; and a value holding all `N` entries is the fold of `max` from `b` over all of them, because an
  element of a linear order is determined by its upper bounds. Only that `max` is the least upper bound of two elements
  is used: nothing is asked of the seed, and no entry needs to be finite.
-/
import Mathlib.Data.Finset.Fold
import Mathlib.Data.Fintype.Basic
import Mathlib.Order.Basic

namespace Cert.RunningMax

variable {α : Type} [LinearOrder α]

/-- `v` holds the first `k` entries of `g` over the seed `b`: its upper bounds are the common upper bounds of `b` and of
    those entries. -/
def Holds {N : ℕ} (b : α) (g : Fin N → α) (k : ℕ) (v : α) : Prop :=
  ∀ c : α, v ≤ c ↔ b ≤ c ∧ ∀ l : Fin N, l.val < k → g l ≤ c

/-- The seed holds no entry. -/
theorem holds_seed {N : ℕ} (b : α) (g : Fin N → α) : Holds b g 0 b :=
  fun _ => ⟨fun h => ⟨h, fun l hl => absurd hl (Nat.not_lt_zero _)⟩, fun h => h.1⟩

/-- Entry `k` of block `n`, as an entry of the whole family. -/
def inBlock {N : ℕ} (B n : ℕ) (hN : B * (n + 1) ≤ N) (k : Fin B) : Fin N :=
  ⟨B * n + k.val, by have := k.isLt; have : B * (n + 1) = B * n + B := Nat.mul_succ B n; omega⟩

/-- One update: from the first `B * n` entries to the first `B * (n + 1)`. -/
theorem holds_step {N : ℕ} (B n : ℕ) (hN : B * (n + 1) ≤ N) (b : α) (g : Fin N → α) (prev : α)
    (hprev : Holds b g (B * n) prev) :
    Holds b g (B * (n + 1))
      (max prev ((Finset.univ : Finset (Fin B)).fold max b fun k => g (inBlock B n hN k))) := by
  intro c
  rw [max_le_iff, hprev c, Finset.fold_max_le]
  have hsucc : B * (n + 1) = B * n + B := Nat.mul_succ B n
  constructor
  · rintro ⟨⟨hb, hlo⟩, -, hblk⟩
    refine ⟨hb, fun l hl => ?_⟩
    by_cases h : l.val < B * n
    · exact hlo l h
    · have hk : l.val - B * n < B := by omega
      have e : inBlock B n hN ⟨l.val - B * n, hk⟩ = l := Fin.ext (by show B * n + (l.val - B * n) = l.val; omega)
      have := hblk ⟨l.val - B * n, hk⟩ (Finset.mem_univ _)
      rwa [e] at this
  · rintro ⟨hb, hall⟩
    refine ⟨⟨hb, fun l hl => hall l (by omega)⟩, hb, fun k _ => hall _ ?_⟩
    show B * n + k.val < B * (n + 1)
    have := k.isLt
    omega

/-- A value holding every entry is the fold of `max` from the seed over the whole family. -/
theorem eq_fold_of_holds {N : ℕ} (b : α) (g : Fin N → α) (k : ℕ) (hk : N ≤ k) (v : α) (hv : Holds b g k v) :
    v = (Finset.univ : Finset (Fin N)).fold max b g := by
  have hfold : ∀ c : α, (Finset.univ : Finset (Fin N)).fold max b g ≤ c ↔ b ≤ c ∧ ∀ l : Fin N, l.val < k → g l ≤ c :=
    fun c => by
      rw [Finset.fold_max_le]
      exact ⟨fun h => ⟨h.1, fun l _ => h.2 l (Finset.mem_univ _)⟩,
        fun h => ⟨h.1, fun l _ => h.2 l (lt_of_lt_of_le l.isLt hk)⟩⟩
  exact le_antisymm ((hv _).mpr ((hfold _).mp le_rfl)) ((hfold _).mpr ((hv _).mp le_rfl))

end Cert.RunningMax
-- ==== Proof.KernelPooled.lean ====
/-
  What the kernel region leaves in its result array: entry `(b, q)` is the maximum, over all 1024 positions `pos`, of
  the similarity `∑ d, unit (X (b, pos, ·)) d * P (d, q)` of the unit vector of `X` at `(b, pos)` with column `q` of `P`.

  The grid visits two row blocks of 8 rows and, inside each, 16 position blocks of 64 positions; the output block of a
  row block stays in place over its 16 points and is written back after the last. By induction on the point, after the
  point at position block `n` the output block holds, at `(r, q)`, a value whose upper bounds are those of the seed and of
  the similarities of the first `64 (n + 1)` positions: the first point of a row block starts from the seed's splat and
  every later one from what the point before left, each adding its own 64 positions. After the sixteenth point that is
  all 1024 positions, so the value is the fold of `max` from the seed over them. The two written-back blocks are rows
  0 to 7 and rows 8 to 15, which together are the whole array.
-/
import proofs.«114233_j45268955299904_1_alg».proof.Proof.Gen.KernelIdeal.Frame
import proofs.«114233_j45268955299904_1_alg».proof.Proof.KernelCases
import proofs.«114233_j45268955299904_1_alg».proof.Proof.KernelPoint
import proofs.«114233_j45268955299904_1_alg».proof.Proof.RunningMax
import Idealize.ShloMosaic.Lib.Pipeline.Value

set_option maxRecDepth 16384

noncomputable section

open scoped BigOperators

namespace Cert.KernelIdeal.Pooled

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Point Cert.KernelIdeal.Cases Cert.RunningMax

variable (m : (ℓ : Loc nD τ sig) → Buf (Elt Ideal) ℓ)

/-- The seed of every maximum, and the floor of every norm. -/
abbrev seed : EReal := Ideal.ofBits .f32 0xFF800000#32
abbrev eps : EReal := Ideal.ofBits .f32 0x2B8CBCCC#32

/-- The two arrays the region reads, as it finds them, and their blocks at a point. -/
abbrev xarr (c : Dev nD) : Vec Ideal S16x1024x768 .f32 := V m c main_arg0
abbrev parr (c : Dev nD) : Vec Ideal S768x5000 .bf16 := V m c main_v10
abbrev xblk (c : Dev nD) (t : Fin cfg0.N) : Vec Ideal S8x64x768 .f32 := iblk m c 0 t
abbrev pblk (c : Dev nD) (t : Fin cfg0.N) : Vec Ideal S768x5000 .bf16 := iblk m c 1 t

/-- The similarity of position `pos` of batch row `b` of `X` with column `q` of `P`. -/
def rowSim (X : Vec Ideal S16x1024x768 .f32) (P : Vec Ideal S768x5000 .bf16) (b : Fin 16) (q : Fin 5000) (pos : Fin 1024) : EReal :=
  ∑ d : Fin 768, unitRow eps (fun e => X (ix3 b pos e)) d * P (ix2 d q)

/-- The pooled array: at `(b, q)` the maximum over every position. -/
def pooled (X : Vec Ideal S16x1024x768 .f32) (P : Vec Ideal S768x5000 .bf16) : Vec Ideal S16x5000 .f32 :=
  fun j => (Finset.univ : Finset (Fin 1024)).fold max seed (rowSim X P (j 0) (j 1))

/-! ## Where the blocks lie -/

/-- The printed index maps over the grid: point `t` is position block `t % 16` of row block `t / 16`. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 2) = t.val / 16 ∧ win0_2.index t (1 : Fin 2) = 0 :=
  (by decide +kernel : ∀ t : Fin grid0.N, _)

theorem hN : cfg0.N = 32 := N_0

/-- Batch row `r` of row block `n / 16`. -/
def batchRow (n : ℕ) (hn : n < 32) (r : Fin 8) : Fin 16 := ⟨8 * (n / 16) + r.val, by have := r.isLt; omega⟩

/-- A block of `X` read at an entry is `X` at the entry's place in the array. -/
theorem xblk_apply (c : Dev nD) (t : Fin cfg0.N) (r : Fin 8) (l : Fin 64) (d : Fin 768) (b : Fin 16) (pos : Fin 1024)
    (hb : b.val = 8 * (t.val / 16) + r.val) (hpos : pos.val = 64 * (t.val % 16) + l.val) :
    xblk m c t (ix3 r l d) = xarr m c (ix3 b pos d) := by
  obtain ⟨e0, e1, e2, -⟩ := idx_facts t
  show V m c main_arg0 (((cfg0.win 0).blk t).view.emb (ix3 r l d)) = V m c main_arg0 (ix3 b pos d)
  refine congrArg (V m c main_arg0) (funext fun a => Fin.ext ?_)
  match a with
  | ⟨0, _⟩ => show win0_0.index t (0 : Fin 3) * 8 + 1 * r.val = b.val; omega
  | ⟨1, _⟩ => show win0_0.index t (1 : Fin 3) * 64 + 1 * l.val = pos.val; omega
  | ⟨2, _⟩ => show win0_0.index t (2 : Fin 3) * 768 + 1 * d.val = d.val; omega

/-- The one block of `P` is `P`. -/
theorem pblk_apply (c : Dev nD) (t : Fin cfg0.N) (d : Fin 768) (q : Fin 5000) :
    pblk m c t (ix2 d q) = parr m c (ix2 d q) := by
  obtain ⟨-, -, -, e3, e4, -⟩ := idx_facts t
  show V m c main_v10 (((cfg0.win 1).blk t).view.emb (ix2 d q)) = V m c main_v10 (ix2 d q)
  refine congrArg (V m c main_v10) (funext fun a => Fin.ext ?_)
  match a with
  | ⟨0, _⟩ => show win0_1.index t (0 : Fin 2) * 768 + 1 * d.val = d.val; omega
  | ⟨1, _⟩ => show win0_1.index t (1 : Fin 2) * 5000 + 1 * q.val = q.val; omega

/-- The similarities a point computes are those of its 64 positions among the 1024. -/
theorem blockSim_eq (c : Dev nD) (t : Fin cfg0.N) (ht : t.val < 32) (r : Fin 8) (q : Fin 5000)
    (hB : 64 * (t.val % 16 + 1) ≤ 1024) :
    blockSim (xblk m c t) (pblk m c t) r q
      = fun k => rowSim (xarr m c) (parr m c) (batchRow t.val ht r) q (inBlock 64 (t.val % 16) hB k) := by
  funext k
  unfold blockSim rowSim
  refine Finset.sum_congr rfl fun d _ => ?_
  have hx : (fun e => xblk m c t (ix3 r k e)) = fun e => xarr m c (ix3 (batchRow t.val ht r) (inBlock 64 (t.val % 16) hB k) e) :=
    funext fun e => xblk_apply m c t r k e _ _ rfl rfl
  rw [hx, pblk_apply]

/-! ## What the output block holds after each point -/

/-- After a point the output block's entry `(r, q)` is the update of what it held before. -/
theorem outs_first (c : Dev nD) (t : Fin cfg0.N) (h0 : t.val % 16 = 0) (r : Fin 8) (q : Fin 5000) :
    outsAt0 m c t.val t.isLt (ix2 r q)
      = max seed ((Finset.univ : Finset (Fin 64)).fold max seed (blockSim (xblk m c t) (pblk m c t) r q)) :=
  (congrFun ((outsAt0_A m c t h0).trans
      (out_first c (grid0.coords t) (ms0_0 t) (hs0_0 t) (ms0_1 t) (hs0_1 t) (ms0_2 t) (hs0_2 t) ((hcond0_0 t).mpr h0)
        (iblk m c 0 t) (iblk m c 1 t))) (ix2 r q)).trans
    (update_apply (xblk m c t) (pblk m c t) (k0_pay1 (F := Ideal)) r q)

theorem outs_later (c : Dev nD) (t : Fin cfg0.N) (h0 : ¬t.val % 16 = 0) (r : Fin 8) (q : Fin 5000) :
    outsAt0 m c t.val t.isLt (ix2 r q)
      = max (outsAt0 m c (t.val - 1) (Nat.lt_of_le_of_lt (Nat.sub_le _ _) t.isLt) (ix2 r q))
          ((Finset.univ : Finset (Fin 64)).fold max seed (blockSim (xblk m c t) (pblk m c t) r q)) :=
  (congrFun ((outsAt0_B m c t h0).trans
      (out_later c (grid0.coords t) (ms0_0 t) (hs0_0 t) (ms0_1 t) (hs0_1 t) (ms0_2 t) (hs0_2 t) (fun h => h0 ((hcond0_0 t).mp h))
        (iblk m c 0 t) (iblk m c 1 t) (outsAt0 m c (t.val - 1) (Nat.lt_of_le_of_lt (Nat.sub_le _ _) t.isLt)))) (ix2 r q)).trans
    (update_apply (xblk m c t) (pblk m c t) (outsAt0 m c (t.val - 1) (Nat.lt_of_le_of_lt (Nat.sub_le _ _) t.isLt)) r q)

/-- THE RUNNING MAXIMUM: after the point at position block `n % 16` of row block `n / 16` the output block's entry
    `(r, q)` holds the first `64 (n % 16 + 1)` positions of batch row `8 (n / 16) + r`. -/
theorem outs_holds (c : Dev nD) : ∀ (n : ℕ) (hn : n < cfg0.N) (hn' : n < 32) (r : Fin 8) (q : Fin 5000),
    Holds seed (rowSim (xarr m c) (parr m c) (batchRow n hn' r) q) (64 * (n % 16 + 1)) (outsAt0 m c n hn (ix2 r q))
  | 0, hn, hn', r, q => by
    have hB : 64 * ((⟨0, hn⟩ : Fin cfg0.N).val % 16 + 1) ≤ 1024 := by show 64 * (0 % 16 + 1) ≤ 1024; omega
    have h := holds_step (N := 1024) 64 0 (by decide) seed (rowSim (xarr m c) (parr m c) (batchRow 0 hn' r) q) seed
      (holds_seed seed _)
    rw [outs_first m c ⟨0, hn⟩ rfl r q, blockSim_eq m c ⟨0, hn⟩ hn' r q hB]
    exact h
  | n + 1, hn, hn', r, q => by
    have ih := outs_holds c n (Nat.lt_of_succ_lt hn) (Nat.lt_of_succ_lt hn') r q
    by_cases h0 : (n + 1) % 16 = 0
    · have hB : 64 * ((⟨n + 1, hn⟩ : Fin cfg0.N).val % 16 + 1) ≤ 1024 := by dsimp only; omega
      rw [outs_first m c ⟨n + 1, hn⟩ h0 r q, blockSim_eq m c ⟨n + 1, hn⟩ hn' r q hB]
      have h := holds_step (N := 1024) 64 0 (by decide) seed (rowSim (xarr m c) (parr m c) (batchRow (n + 1) hn' r) q) seed
        (holds_seed seed _)
      have e : (n + 1) % 16 = 0 := h0
      simpa only [e] using h
    · have hB : 64 * ((⟨n + 1, hn⟩ : Fin cfg0.N).val % 16 + 1) ≤ 1024 := by dsimp only; omega
      rw [outs_later m c ⟨n + 1, hn⟩ h0 r q, blockSim_eq m c ⟨n + 1, hn⟩ hn' r q hB]
      have eb : batchRow n (Nat.lt_of_succ_lt hn') r = batchRow (n + 1) hn' r := Fin.ext (by
        show 8 * (n / 16) + r.val = 8 * ((n + 1) / 16) + r.val
        omega)
      have ek : 64 * (n % 16 + 1) = 64 * ((n + 1) % 16) := by omega
      rw [eb, ek] at ih
      exact holds_step (N := 1024) 64 ((n + 1) % 16) hB seed _ _ ih

/-! ## What is written back, and where -/

/-- The array the region leaves: the pooled array of what it read. -/
abbrev result (c : Dev nD) : Vec Ideal S16x5000 .f32 := pooled (xarr m c) (parr m c)

/-- The output block is written back after the last position block of each row block, and holds that row block of the
    pooled array. -/
theorem flushed_eq (c : Dev nD) (t : Fin cfg0.N) (hf : (cfg0.win 2).flush t = true) :
    (dats m 0 c).flushed 2 t = ((cfg0.win 2).blk t).view.read (Elt Ideal) (result m c) := by
  have ht : t.val < 32 := lt_of_lt_of_eq t.isLt hN
  have h15 : t.val % 16 = 15 := (flush0_2 t).mp hf
  obtain ⟨-, -, -, -, -, e5, e6⟩ := idx_facts t
  show (cfg0.win 2).cut (grid0.coords t) ((dats m 0 c).after 2 t) = _
  rw [after0_2]
  funext j
  obtain ⟨r, q, rfl⟩ : ∃ (r : Fin 8) (q : Fin 5000), j = ix2 r q := ⟨j 0, j 1, eq_ix2 j⟩
  show outsAt0 m c t.val t.isLt (ix2 r q) = result m c (((cfg0.win 2).blk t).view.emb (ix2 r q))
  have hidx : ((cfg0.win 2).blk t).view.emb (ix2 r q) = ix2 (batchRow t.val ht r) q := funext fun a => Fin.ext (by
    match a with
    | ⟨0, _⟩ => show win0_2.index t (0 : Fin 2) * 8 + 1 * r.val = 8 * (t.val / 16) + r.val; omega
    | ⟨1, _⟩ => show win0_2.index t (1 : Fin 2) * 5000 + 1 * q.val = q.val; omega)
  rw [hidx]
  exact eq_fold_of_holds seed _ (64 * (t.val % 16 + 1)) (by omega) _ (outs_holds m c t.val t.isLt ht r q)

/-- An index of the array is in point `t`'s block iff each coordinate is in the block's range on its axis. -/
theorem mem_blk (t : Fin cfg0.N) (i : S16x5000.Idx) :
    i ∈ ((cfg0.win 2).blk t).view.set ↔ ∀ a : Fin 2, win0_2.index t a * S8x5000.size a ≤ (i a).val ∧ (i a).val < win0_2.index t a * S8x5000.size a + S8x5000.size a := by
  show i ∈ ((View.whole main_v11).slice (win0_2.rect t)).set ↔ _
  rw [View.set_slice_whole, Rect.mem_set_unit]
  exact Iff.rfl

/-- Every entry of the array is written back: row `b` by the last point of row block `b / 8`. -/
theorem covered (i : S16x5000.Idx) :
    ∃ t : Fin cfg0.N, (cfg0.win 2).flush t = true ∧ i ∈ ((cfg0.win 2).blk t).view.set := by
  have hi0 : (i 0).val < 16 := (i 0).isLt
  have hi1 : (i 1).val < 5000 := (i 1).isLt
  let t : Fin cfg0.N := ⟨16 * ((i 0).val / 8) + 15, by rw [hN]; omega⟩
  have htv : t.val = 16 * ((i 0).val / 8) + 15 := rfl
  obtain ⟨-, -, -, -, -, e5, e6⟩ := idx_facts t
  refine ⟨t, (flush0_2 t).mpr (by omega), ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 5000 ≤ (i 1).val ∧ (i 1).val < win0_2.index t (1 : Fin 2) * 5000 + 5000; omega

/-- So the region's result array ends holding the pooled array of the arrays it read. -/
theorem final (c : Dev nD) : (dats m 0 c).arrAt 2 cfg0.N = result m c :=
  (dats m 0 c).arrAt_eq_of_cover 2 (result m c) (flushed_eq m c) (covered)

end Cert.KernelIdeal.Pooled

end
-- ==== Proof.RefValue.lean ====
/-
  The reference's side of the value claim.

  Its result is a function `tailOf` of three things only: the pooled array `[16, 500, 10]`, the raw weights and the
  bias (the softplus of the weights, the product with the pooled array, the sum over the last axis, the bias added).
  Its pooled array at `(b, c, j)` is the maximum, over all 1024 positions `pos`, of the dot product over the 768 features
  of the normalized input at `(b, pos)` with the normalized prototype `(c, j)`: the reduction with `max` along one axis is
  the fold of `max` from its initial value over that axis's coordinates, and the contraction is the sum over the
  contracted coordinate.
-/
import proofs.«114233_j45268955299904_1_alg».proof.Defs
import proofs.«114233_j45268955299904_1_alg».proof.Proof.Gen.ReferenceIdeal.Run
import proofs.«114233_j45268955299904_1_alg».proof.Proof.Gen.ReferenceIdeal.Read
import Idealize.ShloMosaic.PureOps.Ideal.Laws
import Idealize.ShloMosaic.PureOps.Reduce
import Idealize.ShloMosaic.Lib.ValueIdx
import Idealize.ShloMosaic.Lib.IdealHost

set_option maxRecDepth 16384

noncomputable section

open scoped BigOperators

namespace Cert.ReferenceIdeal.RefValue

open Idealize.ShloMosaic Idealize.ShloMosaic.ValueIdx
open Cert.ReferenceIdeal Cert.ReferenceIdeal.Gen Cert.ReferenceIdeal.Read

/-- Everything after the pooling, as a function of the pooled array, the raw weights and the bias. -/
def tailOf (pooled : (⟨S16x500x10, .f32⟩ : BufTy).Contents (Elt Ideal)) (w : (⟨S500x10, .f32⟩ : BufTy).Contents (Elt Ideal))
    (bias : (⟨S500, .f32⟩ : BufTy).Contents (Elt Ideal)) : (⟨S16x500, .f32⟩ : BufTy).Contents (Elt Ideal) :=
  addf (F := Ideal) (φ := FTy.f32) (Host.reduceAdd (F := Ideal) (φ := FTy.f32) (mulf (F := Ideal) (φ := FTy.f32) pooled (val_main_v20 (F := Ideal) w)) (val_main_cst_4 (F := Ideal))
      reducesTo_S16x500x10_S16x500_d2 h_S_)
    (val_main_v24 (F := Ideal) bias)

/-- The result is the tail of the pooled array. -/
theorem result_eq_tail (x0 : (⟨S16x1024x768, .f32⟩ : BufTy).Contents (Elt Ideal)) (x1 : (⟨S500x10x768, .f32⟩ : BufTy).Contents (Elt Ideal))
    (x2 : (⟨S500x10, .f32⟩ : BufTy).Contents (Elt Ideal)) (x3 : (⟨S500, .f32⟩ : BufTy).Contents (Elt Ideal)) :
    val_main_v25 (F := Ideal) x0 x1 x2 x3 = tailOf (val_main_v17 (F := Ideal) x0 x1) x2 x3 := rfl

/-- The pooled array at `(b, c, j)`: the fold of `max`, from the reduction's initial value, over the 1024 positions, of
    the dot products of the normalized input with the normalized prototype. -/
theorem pooled_apply (x0 : (⟨S16x1024x768, .f32⟩ : BufTy).Contents (Elt Ideal)) (x1 : (⟨S500x10x768, .f32⟩ : BufTy).Contents (Elt Ideal))
    (b : Fin 16) (c : Fin 500) (j : Fin 10) :
    val_main_v17 (F := Ideal) x0 x1 (ix3 b c j)
      = (Finset.univ : Finset (Fin 1024)).fold max (Ideal.ofBits .f32 0xFF800000#32)
          fun pos => ∑ d : Fin 768, val_main_v7 (F := Ideal) x0 (ix3 b pos d) * val_main_v15 (F := Ideal) x1 (ix3 c j d) := by
  have hR : S16x1024x500x10.Reduces [1] S16x500x10 :=
    let ⟨h, hb⟩ := reducesTo_S16x1024x500x10_S16x500x10_d1; ⟨h, by decide, hb⟩
  unfold val_main_v17
  refine (Host.reduce_eq_fold_single (FloatOps.maximumf (F := Ideal) (φ := FTy.f32)) (val_main_v16 (F := Ideal) x0 x1) (val_main_cst_3 (F := Ideal))
    reducesTo_S16x1024x500x10_S16x500x10_d1 hR h_S_ (ix3 b c j)).trans ?_
  show (Finset.univ : Finset (Fin 1024)).fold max (Ideal.ofBits .f32 0xFF800000#32) (val_main_v16 (F := Ideal) x0 x1 ∘ hR.lift (ix3 b c j)) = _
  refine congrArg (fun f => (Finset.univ : Finset (Fin 1024)).fold max (Ideal.ofBits .f32 0xFF800000#32) f) (funext fun (pos : Fin 1024) => ?_)
  have hi : hR.lift (ix3 b c j) pos = ix4 b pos c j :=
    funext fun a => Fin.ext (by match a with | ⟨0, _⟩ => rfl | ⟨1, _⟩ => rfl | ⟨2, _⟩ => rfl | ⟨3, _⟩ => rfl)
  show val_main_v16 (F := Ideal) x0 x1 (hR.lift (ix3 b c j) pos) = _
  rw [hi, val_main_v16_apply]
  refine Finset.sum_congr rfl fun d _ => ?_
  have hl : lidx_main_v16 (ix4 b pos c j) d = ix3 b pos d :=
    funext fun a => Fin.ext (by match a with | ⟨0, _⟩ => rfl | ⟨1, _⟩ => rfl | ⟨2, _⟩ => rfl)
  have hr : ridx_main_v16 (ix4 b pos c j) d = ix3 c j d :=
    funext fun a => Fin.ext (by match a with | ⟨0, _⟩ => rfl | ⟨1, _⟩ => rfl | ⟨2, _⟩ => rfl)
  rw [hl, hr]

/-- The input normalized, at an entry: the entry over the larger of its row's Euclidean norm and ε. -/
theorem unit_input_apply (x0 : (⟨S16x1024x768, .f32⟩ : BufTy).Contents (Elt Ideal)) (b : Fin 16) (pos : Fin 1024) (d : Fin 768) :
    val_main_v7 (F := Ideal) x0 (ix3 b pos d)
      = Ideal.div (x0 (ix3 b pos d))
          (max (Ideal.sqrt (∑ e : Fin 768, x0 (ix3 b pos e) * x0 (ix3 b pos e))) (Ideal.ofBits .f32 0x2B8CBCCC#32)) := by
  have hidx : ∀ e : Fin 768, idx_main_v1 (idx_main_v2 (idx_main_v6 (ix3 b pos d))) e = ix3 b pos e := fun e =>
    funext fun a => Fin.ext (by match a with | ⟨0, _⟩ => rfl | ⟨1, _⟩ => rfl | ⟨2, _⟩ => rfl)
  rw [val_main_v7_apply, val_main_v6_apply, val_main_v5_apply, val_main_v3_apply, val_main_v2_apply, val_main_v1_apply,
    val_main_v4_apply, val_main_cst_0_apply, val_main_cst_apply]
  simp only [hidx, val_main_v0_apply, Ideal.hostDivf_def, Ideal.maximumf_def, Ideal.hostUnary_sqrt_def, Ideal.mulf_def,
    Ideal.ofBits_def, Ideal.ofBits_zero_f32, zero_add]

/-- The prototypes normalized, at an entry. -/
theorem unit_proto_apply (x1 : (⟨S500x10x768, .f32⟩ : BufTy).Contents (Elt Ideal)) (c : Fin 500) (j : Fin 10) (d : Fin 768) :
    val_main_v15 (F := Ideal) x1 (ix3 c j d)
      = Ideal.div (x1 (ix3 c j d))
          (max (Ideal.sqrt (∑ e : Fin 768, x1 (ix3 c j e) * x1 (ix3 c j e))) (Ideal.ofBits .f32 0x2B8CBCCC#32)) := by
  have hidx : ∀ e : Fin 768, idx_main_v9 (idx_main_v10 (idx_main_v14 (ix3 c j d))) e = ix3 c j e := fun e =>
    funext fun a => Fin.ext (by match a with | ⟨0, _⟩ => rfl | ⟨1, _⟩ => rfl | ⟨2, _⟩ => rfl)
  rw [val_main_v15_apply, val_main_v14_apply, val_main_v13_apply, val_main_v11_apply, val_main_v10_apply, val_main_v9_apply,
    val_main_v12_apply, val_main_cst_2_apply, val_main_cst_1_apply]
  simp only [hidx, val_main_v8_apply, Ideal.hostDivf_def, Ideal.maximumf_def, Ideal.hostUnary_sqrt_def, Ideal.mulf_def,
    Ideal.ofBits_def, Ideal.ofBits_zero_f32, zero_add]

end Cert.ReferenceIdeal.RefValue

end
-- ==== Proof.KernelHost.lean ====
/-
  The host operations around the kernel region.

  Before the region: the prototypes `[500, 10, 768]` are regrouped as 5000 rows of 768 features, each row is divided by
  the larger of its Euclidean norm and ε, and the result is transposed; so the array the region reads has, at
  `(d, q)`, the normalized prototype `(q / 10, q % 10)` at feature `d` (a change of float format is the identity).
  After the region: the result array `[16, 5000]` is regrouped as `[16, 500, 10]` and from there on the operations are,
  one for one, those the reference applies to its own pooled array: the same function `tailOf` of the pooled array, the
  raw weights and the bias.
-/
import proofs.«114233_j45268955299904_1_alg».proof.Proof.Gen.KernelIdeal.Frame
import proofs.«114233_j45268955299904_1_alg».proof.Proof.KernelPooled
import proofs.«114233_j45268955299904_1_alg».proof.Proof.RefValue
import Idealize.ShloMosaic.Lib.Pipeline.Value
import Idealize.ShloMosaic.Lib.StableHlo.Run
import Idealize.ShloMosaic.Lib.IdealHost
import Idealize.ShloMosaic.Lib.Tactic

set_option maxRecDepth 16384

noncomputable section

open scoped BigOperators

namespace Cert.KernelIdeal.HostSide

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pooled

variable (m : (ℓ : Loc nD τ sig) → Buf (Elt Ideal) ℓ) (ρ : Dev nD → PrngReg)

/-! ## Before the region -/

/-- The prototype array the region reads, as a function of the prototype argument. -/
def protoT (x1 : Vec Ideal S500x10x768 .f32) : Vec Ideal S768x5000 .bf16 :=
  transpose S768x5000 [1, 0]
    (truncf (F := Ideal) (φ := FTy.f32) FTy.bf16
      (Host.divf (F := Ideal) (φ := FTy.f32) (shapeCast S5000x768 x1 shapeCasts_S500x10x768_S5000x768)
        (broadcastInDim S5000x768 ![0, 1] bcast_S5000x1_S5000x768_0_1
          (maximumf (F := Ideal) (φ := FTy.f32)
            (Host.sqrt (F := Ideal) (φ := FTy.f32)
              (broadcastInDim S5000x1 ![0] bcast_S5000_S5000x1_0
                (Host.reduceAdd (F := Ideal) (φ := FTy.f32)
                  (mulf (F := Ideal) (φ := FTy.f32) (shapeCast S5000x768 x1 shapeCasts_S500x10x768_S5000x768)
                    (shapeCast S5000x768 x1 shapeCasts_S500x10x768_S5000x768))
                  (constant (F := Ideal) S_ .f32 0x00000000#32) reducesTo_S5000x768_S5000_d1 h_S_)))
            (broadcastInDim S5000x1 ![] bcast_S_S5000x1 (constant (F := Ideal) S_ .f32 0x2B8CBCCC#32)))))
      bitsLt_bf16_f32)
    transposes_S5000x768_S768x5000_1_0

/-- The region finds the prototype array at that function of the prototype argument. -/
theorem parr_eq (c : Dev nD) : parr m c = protoT (m ((c : Thread nD τ).loc main_arg1)) := by
  show StableHlo.after hostOps0 (fun b => m (c, b)) (Proc.devRef .tc main_v10) = _
  after_results
  rfl

/-- Row `q` of the 5000 is prototype `(q / 10, q % 10)`. -/
def protoRow (q : Fin 5000) : Fin 500 := ⟨q.val / 10, by have := q.isLt; omega⟩
def protoCol (q : Fin 5000) : Fin 10 := ⟨q.val % 10, by omega⟩

theorem regroup_proto_apply {α : Type} (x1 : S500x10x768.Idx → α) (h : S500x10x768.ShapeCasts S5000x768) (q : Fin 5000) (d : Fin 768) :
    shapeCast S5000x768 x1 h (ix2 q d) = x1 (ix3 (protoRow q) (protoCol q) d) :=
  shapeCast_apply x1 h _ _ (by
    rw [Shape.rowMajor_val_three, Shape.rowMajor_val_two]
    show (q.val / 10 * 10 + q.val % 10) * 768 + d.val = q.val * 768 + d.val
    omega)

theorem bcast_col_apply {α : Type} (v : S5000x1.Idx → α) (h : S5000x1.BroadcastsInDim S5000x768 ![0, 1]) (q : Fin 5000) (d : Fin 768) :
    broadcastInDim S5000x768 ![0, 1] h v (ix2 q d) = v (ix2 q (0 : Fin 1)) :=
  broadcastInDim_apply _ h v (ix2 q d) (ix2 q (0 : Fin 1)) (fun a => match a with
    | ⟨0, _⟩ => by show q.val = if (5000 : Nat) = 1 then 0 else q.val; rw [if_neg (by decide)]
    | ⟨1, _⟩ => by show 0 = if (1 : Nat) = 1 then 0 else d.val; rw [if_pos rfl])

theorem bcast_vec_apply {α : Type} (v : S5000.Idx → α) (h : S5000.BroadcastsInDim S5000x1 ![0]) (q : Fin 5000) (u : Fin 1) :
    broadcastInDim S5000x1 ![0] h v (ix2 q u) = v (ix1 q) :=
  broadcastInDim_apply _ h v (ix2 q u) (ix1 q) (fun a => match a with
    | ⟨0, _⟩ => by show q.val = if (5000 : Nat) = 1 then 0 else q.val; rw [if_neg (by decide)])

/-- The host's square root at an entry. -/
theorem hostSqrt_apply {s : Shape} (x : FVec Ideal s .f32) (i : s.Idx) :
    Host.sqrt (F := Ideal) (φ := FTy.f32) x i = Ideal.sqrt (x i) := rfl

theorem host_sumsq_apply (y : FVec Ideal S5000x768 .f32) (h' : S5000x768.ReducesTo [1] S5000) (hu : 0 < S_.numel) (q : Fin 5000) :
    Host.reduceAdd (F := Ideal) (φ := FTy.f32) (mulf (F := Ideal) (φ := FTy.f32) y y) (constant (F := Ideal) S_ .f32 0x00000000#32) h' hu (ix1 q)
      = ∑ e : Fin 768, y (ix2 q e) * y (ix2 q e) := by
  have hR : S5000x768.Reduces [1] S5000 := by decide
  refine (hostReduceAdd_apply _ _ h' hu (ix1 q)).trans ?_
  refine (Ideal.hostReduceAdd_single h' hR _ _ (ix1 q)).trans ?_
  show Ideal.ofBits .f32 0x00000000#32 + _ = _
  rw [Ideal.ofBits_zero_f32, zero_add]
  refine Finset.sum_congr rfl fun e _ => ?_
  have hi : hR.lift (ix1 q) e = ix2 q e :=
    funext fun a => Fin.ext (by match a with | ⟨0, _⟩ => rfl | ⟨1, _⟩ => rfl)
  rw [hi]
  rfl

/-- The prototype array at `(d, q)`: prototype `(q / 10, q % 10)` at feature `d` over the larger of its norm and ε. -/
theorem protoT_apply (x1 : Vec Ideal S500x10x768 .f32) (d : Fin 768) (q : Fin 5000) :
    protoT x1 (ix2 d q)
      = Ideal.div (x1 (ix3 (protoRow q) (protoCol q) d))
          (max (Ideal.sqrt (∑ e : Fin 768, x1 (ix3 (protoRow q) (protoCol q) e) * x1 (ix3 (protoRow q) (protoCol q) e))) eps) := by
  unfold protoT
  refine (transpose_apply [1, 0] _ _ (ix2 d q) (ix2 q d) (fun b => by match b with | ⟨0, _⟩ => rfl | ⟨1, _⟩ => rfl)).trans ?_
  refine (truncf_apply (s := S5000x768) (φ := FTy.f32) (ψ := FTy.bf16) _ _ (ix2 q d)).trans ?_
  refine (hostDivf_apply _ _ (ix2 q d)).trans ?_
  refine congrArg₂ Ideal.div (regroup_proto_apply x1 _ q d) ?_
  refine (bcast_col_apply _ _ q d).trans ?_
  refine (maximumf_apply _ _ _).trans ?_
  refine congrArg₂ max ?_ ?_
  · refine (hostSqrt_apply _ _).trans (congrArg Ideal.sqrt ?_)
    refine (bcast_vec_apply _ _ q 0).trans ?_
    refine (host_sumsq_apply _ _ _ q).trans ?_
    refine Finset.sum_congr rfl fun e _ => ?_
    rw [regroup_proto_apply]
  · exact broadcastInDim_scalar_apply _ _ _

/-! ## After the region -/

set_option maxHeartbeats 2000000 in
/-- From any contents of the buffers, the operations after the region leave in the result buffer the reference's tail
    of the regrouped region result, the raw weights and the bias. -/
theorem tail_of_valuation (A : Valuation τ sig (Elt Ideal)) :
    StableHlo.after (List.flatten [hostOps1, hostOps1_1]) A (Proc.devRef .tc main_v20)
      = Cert.ReferenceIdeal.RefValue.tailOf
          (shapeCast S16x500x10 (A (Proc.devRef .tc main_v11)) shapeCasts_S16x5000_S16x500x10)
          (A (Proc.devRef .tc main_arg2)) (A (Proc.devRef .tc main_arg3)) := by
  simp only [hostOps1, hostOps1_1, List.flatten_cons, List.flatten_nil, List.append_nil, List.cons_append, List.nil_append]
  after_results_simp
  rfl

/-- The program's result buffer: the tail of the regrouped pooled array. -/
theorem tail_eq (c : Dev nD) :
    Pipeline.afterTail₀ cfgs (dats m) 0 (V0 m) [hostOps1, hostOps1_1] c main_v20
      = Cert.ReferenceIdeal.RefValue.tailOf
          (shapeCast S16x500x10 (pooled (m ((c : Thread nD τ).loc main_arg0)) (protoT (m ((c : Thread nD τ).loc main_arg1))))
            shapeCasts_S16x5000_S16x500x10)
          (m ((c : Thread nD τ).loc main_arg2)) (m ((c : Thread nD τ).loc main_arg3)) := by
  unfold Pipeline.afterTail₀
  refine (tail_of_valuation _).trans ?_
  have h11 : Pipeline.withArrays (cfgs 0).spec c (V0 m c) (fun w => (dats m 0 c).arrAt w (cfgs 0).N) (Proc.devRef .tc main_v11)
      = pooled (m ((c : Thread nD τ).loc main_arg0)) (protoT (m ((c : Thread nD τ).loc main_arg1))) :=
    (Pipeline.withArrays_arr spec0 launch0.win.arr_inj c _ _ 2).trans
      ((final m c).trans (by
        show pooled (xarr m c) (parr m c) = _
        rw [parr_eq]
        exact congrArg (fun x => pooled x _) (V_main_arg0 m c)))
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  rw [h11, h2, h3]

/-! ## The run, read -/

/-- Every weakly fair execution of the program ends with the result buffer at the tail of the regrouped pooled array
    of the arguments, and the arguments unchanged. -/
theorem run : θ_run defs (onTc (τ := τ) (main (F := Ideal))) ⟨m, fun _ => 0, ρ⟩ fun r => ∀ c : Dev nD,
      r.2.mem ((c.tc : Thread nD τ).loc main_v20)
        = Cert.ReferenceIdeal.RefValue.tailOf
            (shapeCast S16x500x10 (pooled (m ((c : Thread nD τ).loc main_arg0)) (protoT (m ((c : Thread nD τ).loc main_arg1))))
              shapeCasts_S16x5000_S16x500x10)
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v20 (Pipeline.mem_restRefs_of main_v20 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HostSide

end
-- ==== Proof.Bridge.lean ====
/-
  The two pooled arrays are one function of the arguments.

  The kernel's pooled array `[16, 5000]`, regrouped as `[16, 500, 10]`, reads at `(b, c, j)` its entry `(b, 10 c + j)`: the
  maximum over the 1024 positions of `∑ d, unit (X (b, pos, ·)) d * P (d, 10 c + j)`, where `P (d, 10 c + j)` is the
  normalized prototype `((10 c + j) / 10, (10 c + j) % 10) = (c, j)` at feature `d`. The reference's pooled array at
  `(b, c, j)` is the maximum over the same positions of the dot product of the normalized input at `(b, pos)` with the
  normalized prototype `(c, j)`. Both normalizations divide by the larger of the Euclidean norm and the same ε, both
  maxima fold `max` from the same seed over the same 1024 terms: the two sides agree term by term.
-/
import proofs.«114233_j45268955299904_1_alg».proof.Proof.KernelHost
import proofs.«114233_j45268955299904_1_alg».proof.Proof.RefValue

noncomputable section

open scoped BigOperators

namespace Cert.Bridge

open Idealize.ShloMosaic Idealize.ShloMosaic.ValueIdx
open Cert.KernelIdeal.Pooled Cert.KernelIdeal.HostSide Cert.KernelIdeal.Point
open Cert.ReferenceIdeal.RefValue Cert.ReferenceIdeal.Read

/-- Column `10 c + j` of the 5000. -/
def colOf (c : Fin 500) (j : Fin 10) : Fin 5000 := ⟨10 * c.val + j.val, by have := c.isLt; have := j.isLt; omega⟩

theorem regroup_pooled_apply {α : Type} (x : Cert.KernelIdeal.S16x5000.Idx → α)
    (h : Cert.KernelIdeal.S16x5000.ShapeCasts Cert.KernelIdeal.S16x500x10) (b : Fin 16) (c : Fin 500) (j : Fin 10) :
    shapeCast Cert.KernelIdeal.S16x500x10 x h (ix3 b c j) = x (ix2 b (colOf c j)) :=
  shapeCast_apply x h _ _ (by
    rw [Shape.rowMajor_val_two, Shape.rowMajor_val_three]
    show b.val * 5000 + (10 * c.val + j.val) = (b.val * 500 + c.val) * 10 + j.val
    omega)

theorem protoRow_colOf (c : Fin 500) (j : Fin 10) : protoRow (colOf c j) = c :=
  Fin.ext (by show (10 * c.val + j.val) / 10 = c.val; have := j.isLt; omega)
theorem protoCol_colOf (c : Fin 500) (j : Fin 10) : protoCol (colOf c j) = j :=
  Fin.ext (by show (10 * c.val + j.val) % 10 = j.val; have := j.isLt; omega)

/-- The kernel's pooled array, regrouped, is the reference's. -/
theorem pooled_eq (X : Vec Ideal Cert.KernelIdeal.S16x1024x768 .f32) (P1 : Vec Ideal Cert.KernelIdeal.S500x10x768 .f32)
    (h : Cert.KernelIdeal.S16x5000.ShapeCasts Cert.KernelIdeal.S16x500x10) :
    shapeCast Cert.KernelIdeal.S16x500x10 (pooled X (protoT P1)) h = val_main_v17 (F := Ideal) X P1 := by
  funext i
  obtain ⟨b, c, j, rfl⟩ : ∃ (b : Fin 16) (c : Fin 500) (j : Fin 10), i = ix3 b c j := ⟨i 0, i 1, i 2, eq_ix3 i⟩
  refine (regroup_pooled_apply _ h b c j).trans ((pooled_apply X P1 b c j).trans ?_).symm
  show _ = (Finset.univ : Finset (Fin 1024)).fold max seed (rowSim X (protoT P1) b (colOf c j))
  refine congrArg (fun f => (Finset.univ : Finset (Fin 1024)).fold max seed f) (funext fun pos => ?_)
  unfold rowSim
  refine Finset.sum_congr rfl fun d _ => ?_
  rw [unit_input_apply, unit_proto_apply, protoT_apply, protoRow_colOf, protoCol_colOf]
  rfl

end Cert.Bridge

end
-- ==== Proof.lean ====
/-
  The kernel and the reference compute one function of the four arguments, over the extended reals.

  Both take, for every batch row `b` and every prototype `(c, j)`, the maximum over the 1024 positions of the dot product
  of the input at `(b, pos)`, divided by the larger of its Euclidean norm and ε, with prototype `(c, j)`, divided likewise;
  and then apply the same tail: multiply by the softplus of the raw weights, sum over `j`, add the bias. The kernel
  differs in three ways that change nothing over the extended reals. It takes the maximum in sixteen blocks of 64
  positions, keeping a running maximum started from the seed; a maximum of maxima from the same seed is the maximum
  over everything, because `max` is the least upper bound in a linear order (no entry needs to be finite). It rounds
  the normalized vectors to a narrower float format, which is the identity on extended reals. And it lays the
  prototypes out as `[768, 5000]` and the pooled array as `[16, 5000]`, which are the same row-major positions regrouped.

  The modules: the running-maximum law (RunningMax); the kernel body's update at an entry (KernelPoint) and what a run of
  the body leaves in each of its two cases (KernelCases); the region's result array as the pooled array, by induction
  over the grid's points (KernelPooled); the host operations before and after the region (KernelHost); the reference's
  pooled array and tail (RefValue); the two pooled arrays are equal (Bridge). The kernel's frames are the generated ones,
  the reference's is its generated run; the idealization rewrote nothing.
-/
import proofs.«114233_j45268955299904_1_alg».proof.Defs
import proofs.«114233_j45268955299904_1_alg».proof.Proof.Gen.Kernel
import proofs.«114233_j45268955299904_1_alg».proof.Proof.Gen.Kernel.Frame
import proofs.«114233_j45268955299904_1_alg».proof.Proof.Gen.KernelIdeal
import proofs.«114233_j45268955299904_1_alg».proof.Proof.Gen.KernelIdeal.Frame
import proofs.«114233_j45268955299904_1_alg».proof.Proof.Gen.ReferenceIdeal
import proofs.«114233_j45268955299904_1_alg».proof.Proof.Gen.ReferenceIdeal.Run
import proofs.«114233_j45268955299904_1_alg».proof.Proof.Gen.ReferenceIdeal.Read
import proofs.«114233_j45268955299904_1_alg».proof.Proof.Gen.Pre_finite_inputs
import proofs.«114233_j45268955299904_1_alg».proof.Proof.KernelHost
import proofs.«114233_j45268955299904_1_alg».proof.Proof.RefValue
import proofs.«114233_j45268955299904_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the tail of one pooled array of arguments that agree. -/
theorem algebraic : Cert.algebraic_KernelIdeal_ReferenceIdeal := by
  intro m ρ m' ρ' _ hagree
  refine ⟨_, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq_tail,
    (hagree c).1, (hagree c).2.1, (hagree c).2.2.1, (hagree c).2.2.2]
  exact congrArg (fun p => Cert.ReferenceIdeal.RefValue.tailOf p _ _) (Cert.Bridge.pooled_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
